-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : FVec F S100000x64 .f32) (main_arg1 : IVec S1000000 32) (main_arg2 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  main_v3
-- ==== Kernel.lean ====
abbrev S100000x64 : Shape := ⟨2, ![100000, 64]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S10000x64 : Shape := ⟨2, ![10000, 64]⟩
abbrev S10000x1 : Shape := ⟨2, ![10000, 1]⟩
abbrev S1000000x64 : Shape := ⟨2, ![1000000, 64]⟩

abbrev nBuf : Space → Nat
  | .hbm => 30
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S_, .f32⟩
  | .hbm, ⟨4, _⟩ => ⟨S1000000, .f32⟩
  | .hbm, ⟨5, _⟩ => ⟨S_, .f32⟩
  | .hbm, ⟨6, _⟩ => ⟨S100000, .f32⟩
  | .hbm, ⟨7, _⟩ => ⟨S1000000x1, .i32⟩
  | .hbm, ⟨8, _⟩ => ⟨S100000, .f32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S100000, .f32⟩
  | .hbm, ⟨13, _⟩ => ⟨S100000x1, .f32⟩
  | .hbm, ⟨14, _⟩ => ⟨S100000x64, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .f32⟩
  | .hbm, ⟨25, _⟩ => ⟨S100000x64, .f32⟩
  | .hbm, ⟨26, _⟩ => ⟨S1000000x1, .i32⟩
  | .hbm, ⟨27, _⟩ => ⟨S100000x64, .f32⟩
  | .hbm, ⟨28, _⟩ => ⟨S100000x1, .f32⟩
  | .hbm, ⟨29, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S10000x64, .f32⟩
  | .local _ .vmem, ⟨11, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S10000x64_S10000x64 : S10000x64.ShapeCasts S10000x64
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩

abbrev nBuf : Space → Nat
  | .hbm => 41
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S_, .f32⟩
  | .hbm, ⟨4, _⟩ => ⟨S1000000, .f32⟩
  | .hbm, ⟨5, _⟩ => ⟨S_, .f32⟩
  | .hbm, ⟨6, _⟩ => ⟨S100000, .f32⟩
  | .hbm, ⟨7, _⟩ => ⟨S1000000x1, .i32⟩
  | .hbm, ⟨8, _⟩ => ⟨S100000, .f32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S100000, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x64, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000, .f32⟩
  | .hbm, ⟨31, _⟩ => ⟨S1000000x1, .f32⟩
  | .hbm, ⟨32, _⟩ => ⟨S1000000x64, .f32⟩
  | .hbm, ⟨33, _⟩ => ⟨S1000000x64, .f32⟩
  | .hbm, ⟨34, _⟩ => ⟨S_, .f32⟩
  | .hbm, ⟨35, _⟩ => ⟨S100000x64, .f32⟩
  | .hbm, ⟨36, _⟩ => ⟨S1000000x1, .i32⟩
  | .hbm, ⟨37, _⟩ => ⟨S100000x64, .f32⟩
  | .hbm, ⟨38, _⟩ => ⟨S100000x1, .f32⟩
  | .hbm, ⟨39, _⟩ => ⟨S100000x64, .f32⟩
  | .hbm, ⟨40, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  gather_S100000_S1000000x1_S1000000_n_0_n_n_0_1_1_wf : GatherDims.WF S100000 S1000000x1 S1000000 [] [0] [] [0] [] 1 ![1]
  scatter_S100000x64_S1000000x1_S1000000x64_1_0_0_1_wf : ScatterDims.WF S100000x64 S1000000x1 S1000000x64 [1] [0] [0] 1

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.LibRows.lean ====
/-
  A row gather and a row scatter-add read at an index.

  `x[i]` along axis 0 of a matrix or of a rank-3 array is a gather whose start indices are an `[E, 1]` column of row
  numbers: the operand's axis 0 is collapsed and start-indexed, its other axes are offset axes. Result row `e` is the
  operand's row whose number is entry `e` of the column, read as a signed integer and clamped into `[0, N - 1]`
  (`gather_rows2`, `gather_rows3`).

  A segment sum along axis 0 is a scatter with an add body over the same column: the operand's axis 0 is inserted and
  indexed, the other axes are the updates' window axes. At the extended reals the result at row `n` is the operand's
  element plus the sum of the update rows `e` whose row number, read signed and NOT clamped, is `n`; a row number
  outside `[0, N)` lands nowhere and contributes nothing (`scatterAdd_rows2`, `scatterAdd_rows3`).

  Each is proved by reading the dimension numbers' index functions axis by axis: on the row axis the start is the
  column's entry and the window or offset coordinate is 0; on every other axis the start is 0 and the coordinate is
  the update's or result's own. For the scatters this gives "update `(e, c)` lands at `(n, c')` iff entry `e` is `n` and
  `c = c'`", and the filtered sum over update indices is re-indexed by the row `e` alone.
-/
import Idealize.ShloMosaic.PureOps.Ideal
import Idealize.ShloMosaic.PureOps.ShapeOps
import Idealize.ShloMosaic.PureOps.Contract
import Idealize.ShloMosaic.Lib.ValueIdx

noncomputable section

open scoped BigOperators

namespace Cert.LibRows

open Idealize.ShloMosaic Idealize.ShloMosaic.ValueIdx

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Axis 1 of two is not axis 0. -/
theorem fin2_one_nmem : (1 : Fin 2) ∉ ([0] : List (Fin 2)) := by decide
/-- Axis 1 of three is not axis 0. -/
theorem fin3_one_nmem : (1 : Fin 3) ∉ ([0] : List (Fin 3)) := by decide
/-- Axis 2 of three is not axis 0. -/
theorem fin3_two_nmem : (2 : Fin 3) ∉ ([0] : List (Fin 3)) := by decide

/-! ## The row scatter-add over a matrix: `[N, C]` operand, `[E, 1]` row numbers, `[E, C]` updates -/

section Scatter2
variable {N C E w : Nat} (d : ScatterDims ⟨2, ![N, C]⟩ ⟨2, ![E, 1]⟩ ⟨2, ![E, C]⟩)

/-- On the row axis the window of update `(e, c)` starts at row number `e`'s entry, read signed. -/
theorem sc2_start0 (huw : d.updateWindowDims = [1]) (hsd : d.scatterDimsToOperandDims = [0])
    (hivd : d.indexVectorDim = 1) (idx : IVec ⟨2, ![E, 1]⟩ w) (j : (⟨2, ![E, C]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On the column axis, which the map does not name, the window starts at 0. -/
theorem sc2_start1 (hsd : d.scatterDimsToOperandDims = [0])
    (idx : IVec ⟨2, ![E, 1]⟩ w) (j : (⟨2, ![E, C]⟩ : Shape).Idx) :
    d.start j idx 1 = 0 := by
  unfold ScatterDims.start
  rw [dif_neg (by rw [hsd]; exact fin2_one_nmem)]

/-- The row axis is inserted: its window coordinate is 0. -/
theorem sc2_window0 (hiw : d.insertedWindowDims = [0]) (j : (⟨2, ![E, C]⟩ : Shape).Idx) :
    d.window j 0 = 0 := by
  unfold ScatterDims.window
  rw [dif_neg (by rw [ScatterDims.sKept, mem_kept, hiw]; exact fun h => h (List.mem_singleton.mpr rfl))]

/-- The column axis takes the update's column. -/
theorem sc2_window1 (huw : d.updateWindowDims = [1]) (hiw : d.insertedWindowDims = [0])
    (j : (⟨2, ![E, C]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin2_one_nmem)]
  rfl

/-- Update `(e, c)` lands at `(n, c')` exactly when row number `e`'s entry, read signed, is `n` and the columns agree;
    an entry outside `[0, N)` lands nowhere. -/
theorem sc2_resultIdx (huw : d.updateWindowDims = [1]) (hiw : d.insertedWindowDims = [0])
    (hsd : d.scatterDimsToOperandDims = [0]) (hivd : d.indexVectorDim = 1)
    (idx : IVec ⟨2, ![E, 1]⟩ w) (e : Fin E) (c : Fin C) (n : Fin N) (c' : Fin C) :
    d.resultIdx? (ix2 e c) idx = some (ix2 n c') ↔ (idx (ix2 e (0 : Fin 1))).toInt = (n.val : Int) ∧ c = c' := by
  have hs0 : d.start (ix2 e c) idx 0 = (idx (ix2 e (0 : Fin 1))).toInt := sc2_start0 d huw hsd hivd idx _
  have hs1 : d.start (ix2 e c) idx 1 = 0 := sc2_start1 d hsd idx _
  have hw0 : d.window (ix2 e c) 0 = 0 := sc2_window0 d hiw _
  have hw1 : d.window (ix2 e c) 1 = c.val := sc2_window1 d huw hiw _
  generalize (idx (ix2 e (0 : Fin 1))).toInt = z at hs0 ⊢
  have hn := n.isLt
  have hc := c.isLt
  unfold ScatterDims.resultIdx?
  split
  · next h =>
    rw [Option.some.injEq]
    constructor
    · intro hf
      have h0 : (d.start (ix2 e c) idx 0 + (d.window (ix2 e c) 0 : Int)).toNat = n.val :=
        congrArg (fun f : (⟨2, ![N, C]⟩ : Shape).Idx => (f 0).val) hf
      have h1 : (d.start (ix2 e c) idx 1 + (d.window (ix2 e c) 1 : Int)).toNat = c'.val :=
        congrArg (fun f : (⟨2, ![N, C]⟩ : Shape).Idx => (f 1).val) hf
      have h00 := (h 0).1
      rw [hs0, hw0] at h0 h00
      rw [hs1, hw1] at h1
      exact ⟨by omega, Fin.ext (by omega)⟩
    · rintro ⟨hz, rfl⟩
      funext a
      match a with
      | ⟨0, _⟩ =>
        refine Fin.ext ?_
        show (d.start (ix2 e c) idx 0 + (d.window (ix2 e c) 0 : Int)).toNat = n.val
        rw [hs0, hw0]; omega
      | ⟨1, _⟩ =>
        refine Fin.ext ?_
        show (d.start (ix2 e c) idx 1 + (d.window (ix2 e c) 1 : Int)).toNat = c.val
        rw [hs1, hw1]; omega
  · next h =>
    constructor
    · intro hf; cases hf
    · rintro ⟨hz, rfl⟩
      refine absurd ?_ h
      intro a
      match a with
      | ⟨0, _⟩ =>
        show 0 ≤ d.start (ix2 e c) idx 0 + (d.window (ix2 e c) 0 : Int)
          ∧ d.start (ix2 e c) idx 0 + (d.window (ix2 e c) 0 : Int) < (N : Int)
        rw [hs0, hw0]; omega
      | ⟨1, _⟩ =>
        show 0 ≤ d.start (ix2 e c) idx 1 + (d.window (ix2 e c) 1 : Int)
          ∧ d.start (ix2 e c) idx 1 + (d.window (ix2 e c) 1 : Int) < (C : Int)
        rw [hs1, hw1]; omega

/-- THE ROW SCATTER-ADD READ AT `(n, c)` (a segment sum over a matrix: the operand's axis 0 inserted and indexed by the
    `[E, 1]` column of row numbers, its axis 1 the updates' window axis): the operand's element plus the sum of column `c`
    of the update rows `e` whose row number, read signed, is `n`. A row number outside `[0, N)` contributes nowhere. -/
theorem scatterAdd_rows2 (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c) = x (ix2 n c)
      + ∑ e ∈ Finset.univ.filter (fun e : Fin E => (idx (ix2 e (0 : Fin 1))).toInt = (n.val : Int)), upd (ix2 e c) := by
  unfold Ideal.hostScatterAdd
  congr 1
  refine Finset.sum_bij' (fun j _ => (j 0 : Fin E)) (fun e _ => ix2 e c) ?_ ?_ ?_ ?_ ?_
  · intro j hj
    obtain ⟨e, c', rfl⟩ : ∃ (e : Fin E) (c' : Fin C), j = ix2 e c' := ⟨j 0, j 1, eq_ix2 j⟩
    exact Finset.mem_filter.2 ⟨Finset.mem_univ _,
      ((sc2_resultIdx d huw hiw hsd hivd idx e c' n c).1 (Finset.mem_filter.1 hj).2).1⟩
  · intro e he
    exact Finset.mem_filter.2 ⟨Finset.mem_univ _,
      (sc2_resultIdx d huw hiw hsd hivd idx e c n c).2 ⟨(Finset.mem_filter.1 he).2, rfl⟩⟩
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl
  · intro e _
    rfl
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl

end Scatter2

/-! ## The row scatter-add over a rank-3 array: `[N, H, K]` operand, `[E, 1]` row numbers, `[E, H, K]` updates -/

section Scatter3
variable {N H K E w : Nat} (d : ScatterDims ⟨3, ![N, H, K]⟩ ⟨2, ![E, 1]⟩ ⟨3, ![E, H, K]⟩)

/-- On the row axis the window of update `(e, h, k)` starts at row number `e`'s entry, read signed. -/
theorem sc3_start0 (huw : d.updateWindowDims = [1, 2]) (hsd : d.scatterDimsToOperandDims = [0])
    (hivd : d.indexVectorDim = 1) (idx : IVec ⟨2, ![E, 1]⟩ w) (j : (⟨3, ![E, H, K]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On axis 1, which the map does not name, the window starts at 0. -/
theorem sc3_start1 (hsd : d.scatterDimsToOperandDims = [0])
    (idx : IVec ⟨2, ![E, 1]⟩ w) (j : (⟨3, ![E, H, K]⟩ : Shape).Idx) :
    d.start j idx 1 = 0 := by
  unfold ScatterDims.start
  rw [dif_neg (by rw [hsd]; exact fin3_one_nmem)]

/-- On axis 2, which the map does not name, the window starts at 0. -/
theorem sc3_start2 (hsd : d.scatterDimsToOperandDims = [0])
    (idx : IVec ⟨2, ![E, 1]⟩ w) (j : (⟨3, ![E, H, K]⟩ : Shape).Idx) :
    d.start j idx 2 = 0 := by
  unfold ScatterDims.start
  rw [dif_neg (by rw [hsd]; exact fin3_two_nmem)]

/-- The row axis is inserted: its window coordinate is 0. -/
theorem sc3_window0 (hiw : d.insertedWindowDims = [0]) (j : (⟨3, ![E, H, K]⟩ : Shape).Idx) :
    d.window j 0 = 0 := by
  unfold ScatterDims.window
  rw [dif_neg (by rw [ScatterDims.sKept, mem_kept, hiw]; exact fun h => h (List.mem_singleton.mpr rfl))]

/-- Axis 1 takes the update's coordinate on its axis 1. -/
theorem sc3_window1 (huw : d.updateWindowDims = [1, 2]) (hiw : d.insertedWindowDims = [0])
    (j : (⟨3, ![E, H, K]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin3_one_nmem)]
  rfl

/-- Axis 2 takes the update's coordinate on its axis 2. -/
theorem sc3_window2 (huw : d.updateWindowDims = [1, 2]) (hiw : d.insertedWindowDims = [0])
    (j : (⟨3, ![E, H, K]⟩ : Shape).Idx) :
    d.window j 2 = (j 2).val := by
  obtain ⟨uw, iw, sd, ivd, wf⟩ := d
  simp only at huw hiw
  subst huw hiw
  unfold ScatterDims.window
  rw [dif_pos (by rw [ScatterDims.sKept, mem_kept]; exact fin3_two_nmem)]
  rfl

/-- Update `(e, h, k)` lands at `(n, h', k')` exactly when row number `e`'s entry, read signed, is `n` and the other two
    coordinates agree; an entry outside `[0, N)` lands nowhere. -/
theorem sc3_resultIdx (huw : d.updateWindowDims = [1, 2]) (hiw : d.insertedWindowDims = [0])
    (hsd : d.scatterDimsToOperandDims = [0]) (hivd : d.indexVectorDim = 1)
    (idx : IVec ⟨2, ![E, 1]⟩ w) (e : Fin E) (h : Fin H) (k : Fin K) (n : Fin N) (h' : Fin H) (k' : Fin K) :
    d.resultIdx? (ix3 e h k) idx = some (ix3 n h' k')
      ↔ (idx (ix2 e (0 : Fin 1))).toInt = (n.val : Int) ∧ h = h' ∧ k = k' := by
  have hs0 : d.start (ix3 e h k) idx 0 = (idx (ix2 e (0 : Fin 1))).toInt := sc3_start0 d huw hsd hivd idx _
  have hs1 : d.start (ix3 e h k) idx 1 = 0 := sc3_start1 d hsd idx _
  have hs2 : d.start (ix3 e h k) idx 2 = 0 := sc3_start2 d hsd idx _
  have hw0 : d.window (ix3 e h k) 0 = 0 := sc3_window0 d hiw _
  have hw1 : d.window (ix3 e h k) 1 = h.val := sc3_window1 d huw hiw _
  have hw2 : d.window (ix3 e h k) 2 = k.val := sc3_window2 d huw hiw _
  generalize (idx (ix2 e (0 : Fin 1))).toInt = z at hs0 ⊢
  have hn := n.isLt
  have hh := h.isLt
  have hk := k.isLt
  unfold ScatterDims.resultIdx?
  split
  · next hin =>
    rw [Option.some.injEq]
    constructor
    · intro hf
      have h0 : (d.start (ix3 e h k) idx 0 + (d.window (ix3 e h k) 0 : Int)).toNat = n.val :=
        congrArg (fun f : (⟨3, ![N, H, K]⟩ : Shape).Idx => (f 0).val) hf
      have h1 : (d.start (ix3 e h k) idx 1 + (d.window (ix3 e h k) 1 : Int)).toNat = h'.val :=
        congrArg (fun f : (⟨3, ![N, H, K]⟩ : Shape).Idx => (f 1).val) hf
      have h2 : (d.start (ix3 e h k) idx 2 + (d.window (ix3 e h k) 2 : Int)).toNat = k'.val :=
        congrArg (fun f : (⟨3, ![N, H, K]⟩ : Shape).Idx => (f 2).val) hf
      have h00 := (hin 0).1
      rw [hs0, hw0] at h0 h00
      rw [hs1, hw1] at h1
      rw [hs2, hw2] at h2
      exact ⟨by omega, Fin.ext (by omega), Fin.ext (by omega)⟩
    · rintro ⟨hz, rfl, rfl⟩
      funext a
      match a with
      | ⟨0, _⟩ =>
        refine Fin.ext ?_
        show (d.start (ix3 e h k) idx 0 + (d.window (ix3 e h k) 0 : Int)).toNat = n.val
        rw [hs0, hw0]; omega
      | ⟨1, _⟩ =>
        refine Fin.ext ?_
        show (d.start (ix3 e h k) idx 1 + (d.window (ix3 e h k) 1 : Int)).toNat = h.val
        rw [hs1, hw1]; omega
      | ⟨2, _⟩ =>
        refine Fin.ext ?_
        show (d.start (ix3 e h k) idx 2 + (d.window (ix3 e h k) 2 : Int)).toNat = k.val
        rw [hs2, hw2]; omega
  · next hin =>
    constructor
    · intro hf; cases hf
    · rintro ⟨hz, rfl, rfl⟩
      refine absurd ?_ hin
      intro a
      match a with
      | ⟨0, _⟩ =>
        show 0 ≤ d.start (ix3 e h k) idx 0 + (d.window (ix3 e h k) 0 : Int)
          ∧ d.start (ix3 e h k) idx 0 + (d.window (ix3 e h k) 0 : Int) < (N : Int)
        rw [hs0, hw0]; omega
      | ⟨1, _⟩ =>
        show 0 ≤ d.start (ix3 e h k) idx 1 + (d.window (ix3 e h k) 1 : Int)
          ∧ d.start (ix3 e h k) idx 1 + (d.window (ix3 e h k) 1 : Int) < (H : Int)
        rw [hs1, hw1]; omega
      | ⟨2, _⟩ =>
        show 0 ≤ d.start (ix3 e h k) idx 2 + (d.window (ix3 e h k) 2 : Int)
          ∧ d.start (ix3 e h k) idx 2 + (d.window (ix3 e h k) 2 : Int) < (K : Int)
        rw [hs2, hw2]; omega

/-- THE ROW SCATTER-ADD READ AT `(n, h, k)` (a segment sum over a rank-3 array: the operand's axis 0 inserted and indexed
    by the `[E, 1]` column of row numbers, its axes 1 and 2 the updates' window axes): the operand's element plus the sum
    of entry `(h, k)` of the update rows `e` whose row number, read signed, is `n`. A row number outside `[0, N)`
    contributes nowhere. -/
theorem scatterAdd_rows3 (huw : d.updateWindowDims = [1, 2]) (hiw : d.insertedWindowDims = [0])
    (hsd : d.scatterDimsToOperandDims = [0]) (hivd : d.indexVectorDim = 1)
    (x : (⟨3, ![N, H, K]⟩ : Shape).Idx → EReal) (idx : IVec ⟨2, ![E, 1]⟩ w)
    (upd : (⟨3, ![E, H, K]⟩ : Shape).Idx → EReal) (n : Fin N) (h : Fin H) (k : Fin K) :
    Ideal.hostScatterAdd d x idx upd (ix3 n h k) = x (ix3 n h k)
      + ∑ e ∈ Finset.univ.filter (fun e : Fin E => (idx (ix2 e (0 : Fin 1))).toInt = (n.val : Int)), upd (ix3 e h k) := by
  unfold Ideal.hostScatterAdd
  congr 1
  refine Finset.sum_bij' (fun j _ => (j 0 : Fin E)) (fun e _ => ix3 e h k) ?_ ?_ ?_ ?_ ?_
  · intro j hj
    obtain ⟨e, h', k', rfl⟩ : ∃ (e : Fin E) (h' : Fin H) (k' : Fin K), j = ix3 e h' k' := ⟨j 0, j 1, j 2, eq_ix3 j⟩
    exact Finset.mem_filter.2 ⟨Finset.mem_univ _,
      ((sc3_resultIdx d huw hiw hsd hivd idx e h' k' n h k).1 (Finset.mem_filter.1 hj).2).1⟩
  · intro e he
    exact Finset.mem_filter.2 ⟨Finset.mem_univ _,
      (sc3_resultIdx d huw hiw hsd hivd idx e h k n h k).2 ⟨(Finset.mem_filter.1 he).2, rfl, rfl⟩⟩
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl
  · intro e _
    rfl
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl

end Scatter3

/-! ## The row gather from a matrix: `[N, C]` operand, `[E, 1]` row numbers, `[E, C]` result -/

section Gather2
variable {N C E w : Nat} (d : GatherDims ⟨2, ![N, C]⟩ ⟨2, ![E, 1]⟩ ⟨2, ![E, C]⟩)

/-- On the row axis the slice of result `(e, c)` starts at row number `e`'s entry, read signed and clamped into
    `[0, N - 1]`. -/
theorem g2_start0 (hoff : d.offsetDims = [1]) (hcoll : d.collapsedSliceDims = [0])
    (hsim : d.startIndexMap = [0]) (hivd : d.indexVectorDim = 1)
    (idx : IVec ⟨2, ![E, 1]⟩ w) (j : (⟨2, ![E, C]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On the column axis, which the start index map does not name, the slice starts at 0. -/
theorem g2_start1 (hsim : d.startIndexMap = [0]) (idx : IVec ⟨2, ![E, 1]⟩ w) (j : (⟨2, ![E, C]⟩ : Shape).Idx) :
    d.start j idx 1 = 0 := by
  unfold GatherDims.start
  rw [dif_neg (by rw [hsim]; exact fin2_one_nmem)]

/-- The row axis is collapsed: its offset coordinate is 0. -/
theorem g2_off0 (hcoll : d.collapsedSliceDims = [0]) (j : (⟨2, ![E, C]⟩ : Shape).Idx) :
    d.offCoord j 0 = 0 :=
  d.offCoord_eq_zero j 0 fun h => ((d.mem_sKept 0).1 h).1 (by rw [hcoll]; exact List.mem_singleton.mpr rfl)

/-- The column axis takes the result's column. -/
theorem g2_off1 (hoff : d.offsetDims = [1]) (hcoll : d.collapsedSliceDims = [0]) (hob : d.operandBatchingDims = [])
    (j : (⟨2, ![E, C]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin2_one_nmem, List.not_mem_nil⟩)]
  rfl

end Gather2

/-- THE ROW GATHER READ AT `(e, c)` (`x[i]` of a matrix: the operand's axis 0 collapsed and indexed by the `[E, 1]` column
    of row numbers, its axis 1 an offset axis): column `c` of the operand's row whose number is entry `e` of the column,
    read signed and clamped into `[0, N - 1]`. -/
theorem gather_rows2 {α : Type} {N C E w : Nat} (hN : 0 < N) (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c)
      = x (ix2 ⟨min (idx (ix2 e (0 : Fin 1))).toInt.toNat (N - 1), by omega⟩ c) := by
  have hb : ∀ a, d.batchCoord (ix2 e c) a = 0 := fun a =>
    d.batchCoord_eq_zero _ a (by rw [hob]; exact List.not_mem_nil)
  unfold Host.gather
  congr 1
  funext a
  refine Fin.ext ?_
  match a with
  | ⟨0, _⟩ =>
    show d.start (ix2 e c) idx 0 + d.batchCoord (ix2 e c) 0 + d.offCoord (ix2 e c) 0 = _
    rw [hb, g2_off0 d hcoll, g2_start0 d hoff hcoll hsim hivd]
    rfl
  | ⟨1, _⟩ =>
    show d.start (ix2 e c) idx 1 + d.batchCoord (ix2 e c) 1 + d.offCoord (ix2 e c) 1 = _
    rw [hb, g2_off1 d hoff hcoll hob, g2_start1 d hsim]
    show 0 + 0 + c.val = c.val
    omega

/-! ## The row gather from a rank-3 array: `[N, H, K]` operand, `[E, 1]` row numbers, `[E, H, K]` result -/

section Gather3
variable {N H K E w : Nat} (d : GatherDims ⟨3, ![N, H, K]⟩ ⟨2, ![E, 1]⟩ ⟨3, ![E, H, K]⟩)

/-- On the row axis the slice of result `(e, h, k)` starts at row number `e`'s entry, read signed and clamped into
    `[0, N - 1]`. -/
theorem g3_start0 (hoff : d.offsetDims = [1, 2]) (hcoll : d.collapsedSliceDims = [0])
    (hsim : d.startIndexMap = [0]) (hivd : d.indexVectorDim = 1)
    (idx : IVec ⟨2, ![E, 1]⟩ w) (j : (⟨3, ![E, H, K]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On axis 1, which the start index map does not name, the slice starts at 0. -/
theorem g3_start1 (hsim : d.startIndexMap = [0]) (idx : IVec ⟨2, ![E, 1]⟩ w) (j : (⟨3, ![E, H, K]⟩ : Shape).Idx) :
    d.start j idx 1 = 0 := by
  unfold GatherDims.start
  rw [dif_neg (by rw [hsim]; exact fin3_one_nmem)]

/-- On axis 2, which the start index map does not name, the slice starts at 0. -/
theorem g3_start2 (hsim : d.startIndexMap = [0]) (idx : IVec ⟨2, ![E, 1]⟩ w) (j : (⟨3, ![E, H, K]⟩ : Shape).Idx) :
    d.start j idx 2 = 0 := by
  unfold GatherDims.start
  rw [dif_neg (by rw [hsim]; exact fin3_two_nmem)]

/-- The row axis is collapsed: its offset coordinate is 0. -/
theorem g3_off0 (hcoll : d.collapsedSliceDims = [0]) (j : (⟨3, ![E, H, K]⟩ : Shape).Idx) :
    d.offCoord j 0 = 0 :=
  d.offCoord_eq_zero j 0 fun h => ((d.mem_sKept 0).1 h).1 (by rw [hcoll]; exact List.mem_singleton.mpr rfl)

/-- Axis 1 takes the result's coordinate on its axis 1. -/
theorem g3_off1 (hoff : d.offsetDims = [1, 2]) (hcoll : d.collapsedSliceDims = [0]) (hob : d.operandBatchingDims = [])
    (j : (⟨3, ![E, H, K]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin3_one_nmem, List.not_mem_nil⟩)]
  rfl

/-- Axis 2 takes the result's coordinate on its axis 2. -/
theorem g3_off2 (hoff : d.offsetDims = [1, 2]) (hcoll : d.collapsedSliceDims = [0]) (hob : d.operandBatchingDims = [])
    (j : (⟨3, ![E, H, K]⟩ : Shape).Idx) :
    d.offCoord j 2 = (j 2).val := by
  obtain ⟨od, cd, ob, sb, sm, ivd, ss, wf⟩ := d
  simp only at hoff hcoll hob
  subst hoff hcoll hob
  unfold GatherDims.offCoord
  rw [dif_pos (by rw [GatherDims.mem_sKept]; exact ⟨fin3_two_nmem, List.not_mem_nil⟩)]
  rfl

end Gather3

/-- THE ROW GATHER READ AT `(e, h, k)` (`x[i]` of a rank-3 array: the operand's axis 0 collapsed and indexed by the
    `[E, 1]` column of row numbers, its axes 1 and 2 offset axes): entry `(h, k)` of the operand's row whose number is entry
    `e` of the column, read signed and clamped into `[0, N - 1]`. -/
theorem gather_rows3 {α : Type} {N H K E w : Nat} (hN : 0 < N)
    (d : GatherDims ⟨3, ![N, H, K]⟩ ⟨2, ![E, 1]⟩ ⟨3, ![E, H, K]⟩)
    (hoff : d.offsetDims = [1, 2]) (hcoll : d.collapsedSliceDims = [0])
    (hob : d.operandBatchingDims = []) (hsim : d.startIndexMap = [0]) (hivd : d.indexVectorDim = 1)
    (x : (⟨3, ![N, H, K]⟩ : Shape).Idx → α) (idx : IVec ⟨2, ![E, 1]⟩ w) (e : Fin E) (h : Fin H) (k : Fin K) :
    Host.gather d x idx (ix3 e h k)
      = x (ix3 ⟨min (idx (ix2 e (0 : Fin 1))).toInt.toNat (N - 1), by omega⟩ h k) := by
  have hb : ∀ a, d.batchCoord (ix3 e h k) a = 0 := fun a =>
    d.batchCoord_eq_zero _ a (by rw [hob]; exact List.not_mem_nil)
  unfold Host.gather
  congr 1
  funext a
  refine Fin.ext ?_
  match a with
  | ⟨0, _⟩ =>
    show d.start (ix3 e h k) idx 0 + d.batchCoord (ix3 e h k) 0 + d.offCoord (ix3 e h k) 0 = _
    rw [hb, g3_off0 d hcoll, g3_start0 d hoff hcoll hsim hivd]
    rfl
  | ⟨1, _⟩ =>
    show d.start (ix3 e h k) idx 1 + d.batchCoord (ix3 e h k) 1 + d.offCoord (ix3 e h k) 1 = _
    rw [hb, g3_off1 d hoff hcoll hob, g3_start1 d hsim]
    show 0 + 0 + h.val = h.val
    omega
  | ⟨2, _⟩ =>
    show d.start (ix3 e h k) idx 2 + d.batchCoord (ix3 e h k) 2 + d.offCoord (ix3 e h k) 2 = _
    rw [hb, g3_off2 d hoff hcoll hob, g3_start2 d hsim]
    show 0 + 0 + k.val = k.val
    omega

end Cert.LibRows

end
-- ==== Proof.RowScale.lean ====
/-
  Scaling the rows of a matrix by a vector, and how that meets a row gather.

  `rowScale x s` multiplies row `r` of an `[N, C]` matrix `x` by entry `(r, 0)` of an `[N, 1]` column `s`.

  * A row gather only re-indexes rows, so it commutes with a row scale: gathering the rows of `rowScale x (column of v)`
    at a column of row numbers is the gathered rows of `x`, each times the gathered entry of `v` — both gathers clamp
    the row number into `[0, N - 1]` in the same way (`gather_rowScale`).
  * On the extended reals multiplication is commutative, so scaling the rows of `a` by the column of `v` is the
    product of `v` broadcast along the rows with `a` (`rowScale_eq_bcast_mul`).
-/
import Idealize.ShloMosaic.PureOps.Ideal
import Idealize.ShloMosaic.PureOps.ShapeOps
import Idealize.ShloMosaic.Lib.ValueIdx
import Idealize.ShloMosaic.Lib.Pipeline.Value
import Idealize.ShloMosaic.Lib.StableHlo.Predicate
import proofs.«165812_j34703335752220_1_alg».proof.Proof.LibRows

noncomputable section

namespace Cert.RowScale

open Idealize.ShloMosaic Idealize.ShloMosaic.ValueIdx Idealize.ShloMosaic.StableHlo

/-! ## Indices -/

/-- The two spellings of a rank-2 index from its coordinates agree. -/
theorem ij_eq_ix2 {n m : Nat} (p : Fin n) (q : Fin m) : Predicate.ij p q = ix2 p q := by
  funext a; match a with | ⟨0, _⟩ => rfl | ⟨1, _⟩ => rfl

/-- Row `p` of a one-column matrix, in both spellings. -/
theorem ixP_eq_ix2 {n : Nat} (p : Fin n) : Predicate.ixP p = ix2 p (0 : Fin 1) := by
  funext a; match a with | ⟨0, _⟩ => rfl | ⟨1, _⟩ => rfl

/-- The two spellings of a rank-1 index from its coordinate agree. -/
theorem ofFin_eq_ix1 {n : Nat} (k : Fin n) : Shape.Idx.ofFin k = ix1 k := by
  funext a; match a with | ⟨0, _⟩ => exact Fin.ext rfl

/-! ## The row scale -/

section
variable {F : FTy → Type} [FloatOps F]

/-- Row `r` of `x` times entry `(r, 0)` of the column `s`. -/
def rowScale {N C : Nat} (x : FVec F ⟨2, ![N, C]⟩ .f32) (s : FVec F ⟨2, ![N, 1]⟩ .f32) : FVec F ⟨2, ![N, C]⟩ .f32 :=
  fun i => FloatOps.mulf (x i) (s (ix2 (i 0) (0 : Fin 1)))

theorem rowScale_apply {N C : Nat} (x : FVec F ⟨2, ![N, C]⟩ .f32) (s : FVec F ⟨2, ![N, 1]⟩ .f32) (r : Fin N) (c : Fin C) :
    rowScale x s (ix2 r c) = FloatOps.mulf (x (ix2 r c)) (s (ix2 r (0 : Fin 1))) := rfl

/-- A vector laid out as a one-column matrix reads, at `(r, 0)`, the vector at `r`. -/
theorem col_apply {α : Type} {N : Nat} (v : (⟨1, ![N]⟩ : Shape).Idx → α)
    (h : (⟨1, ![N]⟩ : Shape).ShapeCasts ⟨2, ![N, 1]⟩) (r : Fin N) :
    shapeCast ⟨2, ![N, 1]⟩ v h (ix2 r (0 : Fin 1)) = v (ix1 r) := by
  refine shapeCast_apply v h _ _ ?_
  rw [Shape.rowMajor_val_two, Shape.rowMajor_val_one]
  show r.val = r.val * 1 + 0
  omega

/-- The elementwise product with a one-column matrix broadcast along the rows is the row scale. -/
theorem mulf_broadcastTo_eq_rowScale {N C : Nat} (x : FVec F ⟨2, ![N, C]⟩ .f32) (s : FVec F ⟨2, ![N, 1]⟩ .f32)
    (h : (⟨2, ![N, 1]⟩ : Shape).Broadcasts ⟨2, ![N, C]⟩) :
    mulf x (broadcastTo ⟨2, ![N, C]⟩ s h) = rowScale x s := by
  funext j
  show FloatOps.mulf (x j) (broadcastTo ⟨2, ![N, C]⟩ s h j) = FloatOps.mulf (x j) (s (ix2 (j 0) (0 : Fin 1)))
  congr 1
  refine broadcastTo_apply s h j _ ?_
  intro a
  match a with
  | ⟨0, _⟩ =>
    show (j 0).val = if N = 1 then 0 else (j 0).val
    split
    · next h1 => have := (j 0).isLt; simp only [Matrix.cons_val_zero] at this; omega
    · rfl
  | ⟨1, _⟩ =>
    show (0 : Nat) = if (1 : Nat) = 1 then 0 else (j 1).val
    rfl

/-- GATHER COMMUTES WITH THE ROW SCALE. The rows of `rowScale x (column of v)` gathered at the `[E, 1]` column of row
    numbers `idx` are the gathered rows of `x`, each times the gathered entry of `v` (the rank-1 gather of `v` at the same
    column, laid along the rows): both gathers read row number `e` signed and clamped into `[0, N - 1]`. -/
theorem gather_rowScale {N C E w : Nat} (hN : 0 < N)
    (d2 : GatherDims ⟨2, ![N, C]⟩ ⟨2, ![E, 1]⟩ ⟨2, ![E, C]⟩)
    (ho2 : d2.offsetDims = [1]) (hc2 : d2.collapsedSliceDims = [0]) (hob2 : d2.operandBatchingDims = [])
    (hs2 : d2.startIndexMap = [0]) (hi2 : d2.indexVectorDim = 1)
    (d1 : GatherDims ⟨1, ![N]⟩ ⟨2, ![E, 1]⟩ ⟨1, ![E]⟩)
    (hc1 : d1.collapsedSliceDims = [0]) (hob1 : d1.operandBatchingDims = [])
    (hs1 : d1.startIndexMap = [0]) (hi1 : d1.indexVectorDim = 1)
    (hb1 : (⟨1, ![E]⟩ : Shape).BroadcastsInDim ⟨2, ![E, 1]⟩ ![0])
    (hb2 : (⟨2, ![E, 1]⟩ : Shape).BroadcastsInDim ⟨2, ![E, C]⟩ ![0, 1])
    (hcol : (⟨1, ![N]⟩ : Shape).ShapeCasts ⟨2, ![N, 1]⟩)
    (x : FVec F ⟨2, ![N, C]⟩ .f32) (v : FVec F ⟨1, ![N]⟩ .f32) (idx : IVec ⟨2, ![E, 1]⟩ w) :
    Host.gather d2 (rowScale x (shapeCast ⟨2, ![N, 1]⟩ v hcol)) idx
      = mulf (Host.gather d2 x idx)
          (broadcastInDim ⟨2, ![E, C]⟩ ![0, 1] hb2 (broadcastInDim ⟨2, ![E, 1]⟩ ![0] hb1 (Host.gather d1 v idx))) := by
  funext j
  obtain ⟨e, c, rfl⟩ : ∃ (e : Fin E) (c : Fin C), j = ix2 e c := ⟨j 0, j 1, eq_ix2 j⟩
  have hb := Predicate.bcast_rows hb1 hb2 (Host.gather d1 v idx) e c
  rw [ij_eq_ix2] at hb
  have hg : Host.gather d1 v idx (Shape.Idx.ofFin e)
      = v (ix1 ⟨min (idx (ix2 e (0 : Fin 1))).toInt.toNat (N - 1), by omega⟩) := by
    rw [Predicate.gather_take d1 hc1 hob1 hs1 hi1 v idx e hN]
    simp only [ixP_eq_ix2, ofFin_eq_ix1]
  show _ = FloatOps.mulf (Host.gather d2 x idx (ix2 e c))
    (broadcastInDim ⟨2, ![E, C]⟩ ![0, 1] hb2 (broadcastInDim ⟨2, ![E, 1]⟩ ![0] hb1 (Host.gather d1 v idx)) (ix2 e c))
  rw [hb, hg, LibRows.gather_rows2 hN d2 ho2 hc2 hob2 hs2 hi2 x idx e c,
    LibRows.gather_rows2 hN d2 ho2 hc2 hob2 hs2 hi2 _ idx e c, rowScale_apply, col_apply]

end

/-! ## At the extended reals -/

/-- SCALING ROWS IS THE PRODUCT WITH THE BROADCAST VECTOR. On the extended reals multiplication is commutative, so the
    rows of `a` scaled by the column of `v` are `v` broadcast along the rows (as a column, then across it) times `a`. -/
theorem rowScale_eq_bcast_mul {N C : Nat}
    (hb1 : (⟨1, ![N]⟩ : Shape).BroadcastsInDim ⟨2, ![N, 1]⟩ ![0])
    (hb2 : (⟨2, ![N, 1]⟩ : Shape).BroadcastsInDim ⟨2, ![N, C]⟩ ![0, 1])
    (hcol : (⟨1, ![N]⟩ : Shape).ShapeCasts ⟨2, ![N, 1]⟩)
    (a : FVec Ideal ⟨2, ![N, C]⟩ .f32) (v : FVec Ideal ⟨1, ![N]⟩ .f32) :
    rowScale a (shapeCast ⟨2, ![N, 1]⟩ v hcol)
      = mulf (broadcastInDim ⟨2, ![N, C]⟩ ![0, 1] hb2 (broadcastInDim ⟨2, ![N, 1]⟩ ![0] hb1 v)) a := by
  funext j
  obtain ⟨r, c, rfl⟩ : ∃ (r : Fin N) (c : Fin C), j = ix2 r c := ⟨j 0, j 1, eq_ix2 j⟩
  have hb := Predicate.bcast_rows hb1 hb2 v r c
  rw [ij_eq_ix2, ofFin_eq_ix1] at hb
  show _ = FloatOps.mulf (broadcastInDim ⟨2, ![N, C]⟩ ![0, 1] hb2 (broadcastInDim ⟨2, ![N, 1]⟩ ![0] hb1 v) (ix2 r c)) (a (ix2 r c))
  rw [hb, rowScale_apply, col_apply]
  exact mul_comm _ _

end Cert.RowScale

end
-- ==== Proof.RegionValue.lean ====
/-
  What each of the two kernel regions leaves in its output array, as one function of the arrays it is entered with.

  Both regions run the same body on a grid of 10 points: point `t` loads rows `10000 t … 10000 t + 9999` of a
  `[100000, 64]` matrix and of a `[100000, 1]` column, multiplies each row by its column entry, and writes the product
  back to the same rows of the output. The body's value is the row scale of the two loaded blocks; a block's row `y` is
  the array's row `10000 t + y`, on all three windows; the ten blocks tile the output. So the output array ends as the
  row scale of the whole matrix by the whole column.
-/
import proofs.«165812_j34703335752220_1_alg».proof.Proof.Gen.KernelIdeal.Frame
import proofs.«165812_j34703335752220_1_alg».proof.Proof.RowScale

set_option maxRecDepth 16384

noncomputable section

namespace Cert.KernelIdeal.RegionValue

open Cert.KernelIdeal Cert.KernelIdeal.Gen Cert.RowScale
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-! ## Region 0: the embedding table scaled -/

/-- The matrix and the column region 0 is entered with, by their literal types. -/
abbrev mat0 (c : Dev nD) : FVec F S100000x64 .f32 := V c main_arg0
abbrev col0 (c : Dev nD) : FVec F S100000x1 .f32 := V c main_v7

/-- The body's stored value is the row scale of its two loaded blocks. -/
theorem pay0 (a : Vec F S10000x64 .f32) (b : Vec F S10000x1 .f32) : k0_pay1 a b = rowScale a b := by
  unfold k0_pay1
  show mulf a (broadcastTo S10000x64 (shapeCast S10000x1 b shapeCasts_S10000x1_S10000x1) broadcasts_S10000x1_S10000x64) = _
  rw [shapeCast_self]
  exact mulf_broadcastTo_eq_rowScale a b _

/-- The printed index maps over the grid: the three windows move together along the rows, none moves along the columns. -/
theorem idx_facts0 : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0 :=
  (by decide +kernel : ∀ t : Fin grid0.N, _)

/-- Every one of the ten row blocks is some point's. -/
theorem idx_onto0 : ∀ q : Fin 10, ∃ t : Fin cfg0.N, win0_2.index t = ![q.val, 0] :=
  (by decide +kernel : ∀ q : Fin 10, ∃ t : Fin grid0.N, win0_2.index t = ![q.val, 0])

/-- What point `t` writes back is block `t` of the row scale of the whole matrix by the whole column. -/
theorem flushed0 (c : Dev nD) (t : Fin cfg0.N) :
    (dat0 V c).flushed 2 t = ((cfg0.win 2).blk t).view.read (Elt F) (rowScale (mat0 V c) (col0 V c)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S10000x1) zero_offsets]
  rw [pay0]
  obtain ⟨e0, e1, e2, e3, e4⟩ := idx_facts0 t
  funext j
  show FloatOps.mulf (V c main_arg0 (((cfg0.win 0).blk t).view.emb j))
      (V c main_v7 (((cfg0.win 1).blk t).view.emb (ix2 (j 0) (0 : Fin 1))))
    = FloatOps.mulf (V c main_arg0 (((cfg0.win 2).blk t).view.emb j))
      (V c main_v7 (ix2 ((((cfg0.win 2).blk t).view.emb j) 0) (0 : Fin 1)))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix2 (j 0) (0 : Fin 1)) = ix2 ((((cfg0.win 2).blk t).view.emb j) 0) (0 : Fin 1) := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  rw [h0, h1]
  rfl

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v8).slice (win0_2.rect t)).set ↔ _
  rw [View.set_slice_whole, Rect.mem_set_unit]
  exact Iff.rfl

/-- The ten blocks tile the output: row `r` is in the block of the point whose row block is `r / 10000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- REGION 0's output array after the region: the row scale of the matrix by the column it was entered with. -/
theorem final0 (c : Dev nD) : (dat0 V c).arrAt 2 cfg0.N = rowScale (mat0 V c) (col0 V c) :=
  (dat0 V c).arrAt_eq_of_cover 2 _ (fun t _ => flushed0 V c t) cover0

/-! ## Region 1: the aggregated rows scaled -/

abbrev mat1 (c : Dev nD) : FVec F S100000x64 .f32 := V c main_v18
abbrev col1 (c : Dev nD) : FVec F S100000x1 .f32 := V c main_v19

theorem pay1 (a : Vec F S10000x64 .f32) (b : Vec F S10000x1 .f32) : k1_pay1 a b = rowScale a b := by
  unfold k1_pay1
  show mulf (shapeCast S10000x64 a shapeCasts_S10000x64_S10000x64)
    (broadcastTo S10000x64 (shapeCast S10000x1 b shapeCasts_S10000x1_S10000x1) broadcasts_S10000x1_S10000x64) = _
  rw [shapeCast_self, shapeCast_self]
  exact mulf_broadcastTo_eq_rowScale a b _

theorem idx_facts1 : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (1 : Fin 2) = 0 :=
  (by decide +kernel : ∀ t : Fin grid1.N, _)

theorem idx_onto1 : ∀ q : Fin 10, ∃ t : Fin cfg1.N, win1_2.index t = ![q.val, 0] :=
  (by decide +kernel : ∀ q : Fin 10, ∃ t : Fin grid1.N, win1_2.index t = ![q.val, 0])

theorem flushed1 (c : Dev nD) (t : Fin cfg1.N) :
    (dat1 V c).flushed 2 t = ((cfg1.win 2).blk t).view.read (Elt F) (rowScale (mat1 V c) (col1 V c)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S10000x1) zero_offsets]
  rw [pay1]
  obtain ⟨e0, e1, e2, e3, e4⟩ := idx_facts1 t
  funext j
  show FloatOps.mulf (V c main_v18 (((cfg1.win 0).blk t).view.emb j))
      (V c main_v19 (((cfg1.win 1).blk t).view.emb (ix2 (j 0) (0 : Fin 1))))
    = FloatOps.mulf (V c main_v18 (((cfg1.win 2).blk t).view.emb j))
      (V c main_v19 (ix2 ((((cfg1.win 2).blk t).view.emb j) 0) (0 : Fin 1)))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (j 0) (0 : Fin 1)) = ix2 ((((cfg1.win 2).blk t).view.emb j) 0) (0 : Fin 1) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  rw [h0, h1]
  rfl

theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v20).slice (win1_2.rect t)).set ↔ _
  rw [View.set_slice_whole, Rect.mem_set_unit]
  exact Iff.rfl

theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- REGION 1's output array after the region: the row scale of the matrix by the column it was entered with. -/
theorem final1 (c : Dev nD) : (dat1 V c).arrAt 2 cfg1.N = rowScale (mat1 V c) (col1 V c) :=
  (dat1 V c).arrAt_eq_of_cover 2 _ (fun t _ => flushed1 V c t) cover1

end Cert.KernelIdeal.RegionValue

end
-- ==== Proof.KernelValue.lean ====
/-
  The kernel program's result as one function of its three argument arrays.

  @main computes, on the host, the per-node factor `1 / sqrt(out-degree)` from the source column (a scatter-add of ones,
  a square root, a quotient) and lays it out as a column; region 0 scales the rows of the embedding table by that column;
  the host gathers the scaled rows at the source column (negative entries wrapped by the table's height) and
  scatter-adds them at the destination column into zeros; region 1 scales the rows of that sum by the same column.
  The buffers' contents are followed through the four segments: each host stretch is read operation by operation, each
  region's output array is the row scale of what the region was entered with.
-/
import proofs.«165812_j34703335752220_1_alg».proof.Proof.Gen.KernelIdeal.Frame
import proofs.«165812_j34703335752220_1_alg».proof.Proof.RegionValue
import proofs.«165812_j34703335752220_1_alg».proof.Proof.KernelRun
import Idealize.ShloMosaic.Lib.StableHlo.Run

set_option maxRecDepth 16384

noncomputable section

namespace Cert.KernelIdeal.KValue

open Cert.KernelIdeal Cert.KernelIdeal.Gen Cert.KernelIdeal.RegionValue Cert.RowScale
open Idealize.ShloMosaic Idealize.ShloMosaic.TcCoe Idealize.ShloMosaic.StableHlo
open Idealize.SL Idealize.SL.Sem

variable {F : FTy → Type} [FloatOps F]

/-! ## The host-computed pieces, as functions of the arguments -/

/-- The per-node factor: one over the square root of the node's out-degree (the scatter-add of a one per edge at the
    edge's source, into zeros). -/
def nodeScale (src : (⟨S1000000, .i32⟩ : BufTy).Contents (Elt F)) : (⟨S100000, .f32⟩ : BufTy).Contents (Elt F) :=
  Host.divf (broadcastInDim S100000 ![] bcast_S_S100000 (constant S_ .f32 0x3F800000#32))
    (Host.sqrt (Host.scatterAdd scatter_S100000_S1000000x1_S1000000_n_0_0_1
      (broadcastInDim S100000 ![] bcast_S_S100000 (constant S_ .f32 0x00000000#32))
      (broadcastInDim S1000000x1 ![0] bcast_S1000000_S1000000x1_0 src)
      (broadcastInDim S1000000 ![] bcast_S_S1000000 (constant S_ .f32 0x3F800000#32))))

/-- The factor as a one-column matrix. -/
def nodeScaleCol (src : (⟨S1000000, .i32⟩ : BufTy).Contents (Elt F)) : (⟨S100000x1, .f32⟩ : BufTy).Contents (Elt F) :=
  shapeCast S100000x1 (nodeScale src) shapeCasts_S100000_S100000x1

/-- The source column as row numbers: a negative entry has the table's height added. -/
def srcRows (src : (⟨S1000000, .i32⟩ : BufTy).Contents (Elt F)) : (⟨S1000000x1, .i32⟩ : BufTy).Contents (Elt F) :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

/-- The scaled table's rows gathered at the sources and summed at the destinations. -/
def aggregate (tbl : (⟨S100000x64, .f32⟩ : BufTy).Contents (Elt F)) (src dst : (⟨S1000000, .i32⟩ : BufTy).Contents (Elt F)) :
    (⟨S100000x64, .f32⟩ : BufTy).Contents (Elt F) :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst)
    (Host.gather gather_S100000x64_S1000000x1_S1000000x64_1_0_n_n_0_1_164 tbl (srcRows src))

/-- THE KERNEL PROGRAM'S VALUE: the aggregate of the row-scaled table, row-scaled again. -/
def kernelValue (x : (⟨S100000x64, .f32⟩ : BufTy).Contents (Elt F)) (src dst : (⟨S1000000, .i32⟩ : BufTy).Contents (Elt F)) :
    (⟨S100000x64, .f32⟩ : BufTy).Contents (Elt F) :=
  rowScale (aggregate (rowScale x (nodeScaleCol src)) src dst) (nodeScaleCol src)

variable (m : (ℓ : Loc nD τ sig) → Buf (Elt F) ℓ) (ρ : Dev nD → PrngReg)

/-! ## At region 0's entry: after the first host stretch -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_v6 (c : Dev nD) : W1 m ρ c (Proc.devRef .tc main_v6) = nodeScale (m ((c : Thread nD τ).loc main_arg1)) := by
  show StableHlo.after hostOps0 (W0 m ρ c) (Proc.devRef .tc main_v6) = _
  after_results
  rfl
theorem W1_v7 (c : Dev nD) : W1 m ρ c (Proc.devRef .tc main_v7) = nodeScaleCol (m ((c : Thread nD τ).loc main_arg1)) := by
  show StableHlo.after hostOps0 (W0 m ρ c) (Proc.devRef .tc main_v7) = _
  after_results
  rfl

/-! ## At region 0's exit -/

/-- Region 0 leaves the embedding table with its rows scaled by the node factor. -/
theorem W2_v8 (c : Dev nD) : W2 m ρ c (Proc.devRef .tc main_v8)
    = rowScale (m ((c : Thread nD τ).loc main_arg0)) (nodeScaleCol (m ((c : Thread nD τ).loc main_arg1))) :=
  (W2_arr m ρ c 2).trans ((final0 (V1 m ρ) c).trans (congrArg₂ rowScale (W1_arg0 m ρ c) (W1_v7 m ρ c)))
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_v6 (c : Dev nD) : W2 m ρ c (Proc.devRef .tc main_v6) = nodeScale (m ((c : Thread nD τ).loc main_arg1)) :=
  (W2_of_ne m ρ c main_v6 (by decide)).trans (W1_v6 m ρ c)

/-! ## At region 1's entry: after the second host stretch -/

theorem W3_v18 (c : Dev nD) : W3 m ρ c (Proc.devRef .tc main_v18)
    = aggregate (rowScale (m ((c : Thread nD τ).loc main_arg0)) (nodeScaleCol (m ((c : Thread nD τ).loc main_arg1))))
        (m ((c : Thread nD τ).loc main_arg1)) (m ((c : Thread nD τ).loc main_arg2)) := by
  show StableHlo.after hostOps1 (W2 m ρ c) (Proc.devRef .tc main_v18) = _
  after_results
  rw [W2_v8, W2_arg1, W2_arg2]
  rfl
theorem W3_v19 (c : Dev nD) : W3 m ρ c (Proc.devRef .tc main_v19) = nodeScaleCol (m ((c : Thread nD τ).loc main_arg1)) := by
  show StableHlo.after hostOps1 (W2 m ρ c) (Proc.devRef .tc main_v19) = _
  after_results
  rw [W2_v6]
  rfl

/-! ## At the return -/

/-- The result buffer ends at the kernel program's value of the launch contents of the arguments. -/
theorem W4_v20 (c : Dev nD) : W4 m ρ c (Proc.devRef .tc main_v20)
    = kernelValue (m ((c : Thread nD τ).loc main_arg0)) (m ((c : Thread nD τ).loc main_arg1)) (m ((c : Thread nD τ).loc main_arg2)) :=
  (W4_arr m ρ c 2).trans ((final1 (V3 m ρ) c).trans (congrArg₂ rowScale (W3_v18 m ρ c) (W3_v19 m ρ c)))

/-- THE RUN, READ: every weakly fair execution of @main terminates with the result buffer at `kernelValue` of the
    arguments and the arguments as launched. -/
theorem run : θ_run defs (onTc (τ := τ) (main (F := F))) ⟨m, fun _ => 0, ρ⟩ (fun r => ∀ c : Dev nD,
      r.2.mem ((c.tc : Thread nD τ).loc main_v20)
        = kernelValue (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W4_v20 m ρ c), (h c).2⟩) (Cert.KernelIdeal.GenP.run_named m ρ)

end Cert.KernelIdeal.KValue

end
-- ==== Proof.RefValue.lean ====
/-
  The reference's result is the kernel program's value.

  The reference gathers the table's rows at the sources, multiplies each gathered row by the gathered node factor, sums
  at the destinations, and multiplies row `n` of the sum by node `n`'s factor from the left. The kernel program scales
  the table's rows first and gathers afterwards — a gather only re-indexes rows, so the gathered rows are the same
  products —, sums the same way, and multiplies row `n` by the factor from the right, which on the extended reals is the
  same product. The node factor, the wrapped source column and the scatter-add are the same operations of the same
  arguments in both programs.
-/
import proofs.«165812_j34703335752220_1_alg».proof.Proof.KernelValue
import proofs.«165812_j34703335752220_1_alg».proof.Proof.Gen.ReferenceIdeal.Run

set_option maxRecDepth 16384

noncomputable section

namespace Cert.ReferenceIdeal.RefValue

open Cert.ReferenceIdeal Cert.ReferenceIdeal.Gen Cert.RowScale
open Idealize.ShloMosaic Idealize.ShloMosaic.TcCoe

/-- The scaled table's rows gathered at the sources are the table's gathered rows, each times the gathered factor. -/
theorem gathered_eq (x : (⟨S100000x64, .f32⟩ : BufTy).Contents (Elt Ideal)) (src : (⟨S1000000, .i32⟩ : BufTy).Contents (Elt Ideal)) :
    Host.gather Cert.KernelIdeal.gather_S100000x64_S1000000x1_S1000000x64_1_0_n_n_0_1_164
        (rowScale x (Cert.KernelIdeal.KValue.nodeScaleCol (F := Ideal) src)) (Cert.KernelIdeal.KValue.srcRows (F := Ideal) src)
      = mulf (F := Ideal) (Host.gather Cert.KernelIdeal.gather_S100000x64_S1000000x1_S1000000x64_1_0_n_n_0_1_164 x (Cert.KernelIdeal.KValue.srcRows (F := Ideal) src))
          (broadcastInDim S1000000x64 ![0, 1] bcast_S1000000x1_S1000000x64_0_1 (broadcastInDim S1000000x1 ![0] bcast_S1000000_S1000000x1_0
            (Host.gather gather_S100000_S1000000x1_S1000000_n_0_n_n_0_1_1 (Cert.KernelIdeal.KValue.nodeScale (F := Ideal) src)
              (Cert.KernelIdeal.KValue.srcRows (F := Ideal) src)))) :=
  gather_rowScale (F := Ideal) (by decide) Cert.KernelIdeal.gather_S100000x64_S1000000x1_S1000000x64_1_0_n_n_0_1_164 rfl rfl rfl rfl rfl
    gather_S100000_S1000000x1_S1000000_n_0_n_n_0_1_1 rfl rfl rfl rfl
    bcast_S1000000_S1000000x1_0 bcast_S1000000x1_S1000000x64_0_1 Cert.KernelIdeal.Facts₀.shapeCasts_S100000_S100000x1
    x (Cert.KernelIdeal.KValue.nodeScale (F := Ideal) src) (Cert.KernelIdeal.KValue.srcRows (F := Ideal) src)

/-- THE TWO RESULTS ARE ONE FUNCTION of the three arguments, on the extended reals. -/
theorem result_eq (x : (⟨S100000x64, .f32⟩ : BufTy).Contents (Elt Ideal)) (src dst : (⟨S1000000, .i32⟩ : BufTy).Contents (Elt Ideal)) :
    mulf (F := Ideal) (broadcastInDim S100000x64 ![0, 1] bcast_S100000x1_S100000x64_0_1 (broadcastInDim S100000x1 ![0] bcast_S100000_S100000x1_0 (Host.divf (F := Ideal) (broadcastInDim S100000 ![] bcast_S_S100000 (constant (F := Ideal) S_ .f32 0x3F800000#32)) (Host.sqrt (F := Ideal) (Host.scatterAdd (F := Ideal) scatter_S100000_S1000000x1_S1000000_n_0_0_1 (broadcastInDim S100000 ![] bcast_S_S100000 (constant (F := Ideal) S_ .f32 0x00000000#32)) (broadcastInDim S1000000x1 ![0] bcast_S1000000_S1000000x1_0 src) (broadcastInDim S1000000 ![] bcast_S_S1000000 (constant (F := Ideal) S_ .f32 0x3F800000#32)))))))
      (Host.scatterAdd (F := Ideal) scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 dst)
        (mulf (F := Ideal) (Host.gather gather_S100000x64_S1000000x1_S1000000x64_1_0_n_n_0_1_164 x (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)))
          (broadcastInDim S1000000x64 ![0, 1] bcast_S1000000x1_S1000000x64_0_1 (broadcastInDim S1000000x1 ![0] bcast_S1000000_S1000000x1_0 (Host.gather gather_S100000_S1000000x1_S1000000_n_0_n_n_0_1_1 (Host.divf (F := Ideal) (broadcastInDim S100000 ![] bcast_S_S100000 (constant (F := Ideal) S_ .f32 0x3F800000#32)) (Host.sqrt (F := Ideal) (Host.scatterAdd (F := Ideal) scatter_S100000_S1000000x1_S1000000_n_0_0_1 (broadcastInDim S100000 ![] bcast_S_S100000 (constant (F := Ideal) S_ .f32 0x00000000#32)) (broadcastInDim S1000000x1 ![0] bcast_S1000000_S1000000x1_0 src) (broadcastInDim S1000000 ![] bcast_S_S1000000 (constant (F := Ideal) S_ .f32 0x3F800000#32))))) (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)))))))
    = Cert.KernelIdeal.KValue.kernelValue (F := Ideal) x src dst := by
  refine Eq.symm ?_
  refine (rowScale_eq_bcast_mul bcast_S100000_S100000x1_0 bcast_S100000x1_S100000x64_0_1
    Cert.KernelIdeal.Facts₀.shapeCasts_S100000_S100000x1 _ (Cert.KernelIdeal.KValue.nodeScale (F := Ideal) src)).trans ?_
  refine congrArg (mulf (F := Ideal) _) ?_
  refine (congrArg (Host.scatterAdd (F := Ideal) Cert.KernelIdeal.scatter_S100000x64_S1000000x1_S1000000x64_1_0_0_1 _ _) (gathered_eq x src)).trans ?_
  rfl

end Cert.ReferenceIdeal.RefValue

end
-- ==== Proof.lean ====
/-
  Degree-normalised neighbour sum: `out[n] = s[n] · Σ_{e : dst e = n} x[src e] · s[src e]` with `s = 1 / sqrt(out-degree)`,
  over a `[100000, 64]` table `x` and 1000000 edges.

  The kernel program scales the table's rows by `s` in a first kernel region, gathers and scatter-adds on the host, and
  scales the rows of the sum by `s` in a second region; the reference gathers first, scales each gathered row by the
  gathered factor, sums, and multiplies by `s` from the left. Over the extended reals the two are one function:
    * a row gather only re-indexes rows, so it commutes with scaling rows by a per-row factor — and the rank-2 gather
      of rows and the rank-1 gather of factors clamp a row number into `[0, 99999]` identically (Proof/RowScale.lean);
    * multiplication is commutative, infinities included, so `agg · s = s · agg`;
    * the factor `s`, the wrapped source column and the scatter-add are the same operations of the same arguments.
  No finiteness is used. The ideal pass rewrote nothing, so the idealised kernel is the kernel's own text.

  Each region's output array is the row scale of the arrays the region is entered with (Proof/RegionValue.lean: the ten
  row blocks tile the output); the buffers are followed through @main's four segments to the result buffer
  (Proof/KernelValue.lean, over the run of Proof/KernelRun.lean); the reference's run is its generated one, and its term
  is identified with the kernel program's in Proof/RefValue.lean.
-/
import proofs.«165812_j34703335752220_1_alg».proof.Defs
import proofs.«165812_j34703335752220_1_alg».proof.Proof.Gen.Kernel
import proofs.«165812_j34703335752220_1_alg».proof.Proof.Gen.Kernel.Skeleton
import proofs.«165812_j34703335752220_1_alg».proof.Proof.Gen.Kernel.Launch
import proofs.«165812_j34703335752220_1_alg».proof.Proof.Gen.Kernel.Points
import proofs.«165812_j34703335752220_1_alg».proof.Proof.Gen.Kernel.Frame
import proofs.«165812_j34703335752220_1_alg».proof.Proof.Gen.KernelIdeal
import proofs.«165812_j34703335752220_1_alg».proof.Proof.Gen.KernelIdeal.Skeleton
import proofs.«165812_j34703335752220_1_alg».proof.Proof.Gen.KernelIdeal.Launch
import proofs.«165812_j34703335752220_1_alg».proof.Proof.Gen.KernelIdeal.Points
import proofs.«165812_j34703335752220_1_alg».proof.Proof.Gen.KernelIdeal.Frame
import proofs.«165812_j34703335752220_1_alg».proof.Proof.Gen.ReferenceIdeal
import proofs.«165812_j34703335752220_1_alg».proof.Proof.Gen.Pre_finite_inputs
import proofs.«165812_j34703335752220_1_alg».proof.Proof.Gen.ReferenceIdeal.Run
import proofs.«165812_j34703335752220_1_alg».proof.Proof.KernelValue
import proofs.«165812_j34703335752220_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the three arguments both programs end with the result buffer at the kernel program's
    value of those arguments: the kernel program by its run read through the segments, the reference by its run and
    the identity of the two terms. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
